-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4x1024x1024 .f32) (main_arg4 : FVec F S4x1024x1024 .f32) (main_arg5 : FVec F S4x1024 .f32) (main_arg6 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4096x1024 : Shape := ⟨2, ![4096, 1024]⟩
abbrev S4x1024x1024 : Shape := ⟨3, ![4, 1024, 1024]⟩
abbrev S4x1024 : Shape := ⟨2, ![4, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x1024, .bf16⟩
  | .hbm, ⟨8, _⟩ => ⟨S4x1024x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S4x1024, .f32⟩
  | .local _ .vmem, ⟨9, _⟩ => ⟨S4x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S4x1024_S4x1024_0_0 : ∀ a, (![0, 0] : Fin 2 → Nat) a + S4x1024.size a ≤ S4x1024.size a
  h_S4x1024 : 0 < S4x1024.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  slices_S4x1024_o0_0_S1x1024 : S4x1024.Slices ![0, 0] S1x1024
  shapeCasts_S1x1024_S1024 : S1x1024.ShapeCasts S1024
  shapeCasts_S1024_S1x1024 : S1024.ShapeCasts S1x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  slices_S4x1024_o1_0_S1x1024 : S4x1024.Slices ![1, 0] S1x1024
  inb_S4x1024x1024_S1x1024x1024_2_0_0 : ∀ a, (![2, 0, 0] : Fin 3 → Nat) a + S1x1024x1024.size a ≤ S4x1024x1024.size a
  slices_S4x1024_o2_0_S1x1024 : S4x1024.Slices ![2, 0] S1x1024
  inb_S4x1024x1024_S1x1024x1024_3_0_0 : ∀ a, (![3, 0, 0] : Fin 3 → Nat) a + S1x1024x1024.size a ≤ S4x1024x1024.size a
  slices_S4x1024_o3_0_S1x1024 : S4x1024.Slices ![3, 0] S1x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S4x1x1024 : Shape := ⟨3, ![4, 1, 1024]⟩
abbrev S1x4096x1024 : Shape := ⟨3, ![1, 4096, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x4096, .f32⟩
  | .hbm, ⟨8, _⟩ => ⟨S4x4096x1024, .f32⟩
  | .hbm, ⟨9, _⟩ => ⟨S4x1024x4096, .f32⟩
  | .hbm, ⟨10, _⟩ => ⟨S4x4096x1024, .f32⟩
  | .hbm, ⟨11, _⟩ => ⟨S4x4096x1024, .f32⟩
  | .hbm, ⟨12, _⟩ => ⟨S4x1024, .f32⟩
  | .hbm, ⟨13, _⟩ => ⟨S4x1x1024, .f32⟩
  | .hbm, ⟨14, _⟩ => ⟨S4x4096x1024, .f32⟩
  | .hbm, ⟨15, _⟩ => ⟨S4x4096x1024, .f32⟩
  | .hbm, ⟨16, _⟩ => ⟨S1x4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S1x4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S1x4096x1024, .f32⟩
  | .hbm, ⟨37, _⟩ => ⟨S4096x1024, .f32⟩
  | .hbm, ⟨38, _⟩ => ⟨S4096x1024, .f32⟩
  | .hbm, ⟨39, _⟩ => ⟨S1x4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  transposes_S4x1024x4096_S4x4096x1024_0_2_1 : S4x1024x4096.Transposes [0, 2, 1] S4x4096x1024
  bcast_S4x1024_S4x1x1024_0_2 : S4x1024.BroadcastsInDim S4x1x1024 (![0, 2] : Fin 2 → Fin S4x1x1024.rank)
  bcast_S4x1x1024_S4x4096x1024_0_1_2 : S4x1x1024.BroadcastsInDim S4x4096x1024 (![0, 1, 2] : Fin 3 → Fin S4x4096x1024.rank)
  slices_S4x4096x1024_S1x4096x1024_0_0_0 : S4x4096x1024.Slices ![0, 0, 0] S1x4096x1024
  shapeCasts_S1x4096x1024_S4096x1024 : S1x4096x1024.ShapeCasts S4096x1024
  bcast_S_S4096x1024 : S_.BroadcastsInDim S4096x1024 (![] : Fin 0 → Fin S4096x1024.rank)
  slices_S4x4096x1024_S1x4096x1024_1_0_0 : S4x4096x1024.Slices ![1, 0, 0] S1x4096x1024
  slices_S4x4096x1024_S1x4096x1024_2_0_0 : S4x4096x1024.Slices ![2, 0, 0] S1x4096x1024
  slices_S4x4096x1024_S1x4096x1024_3_0_0 : S4x4096x1024.Slices ![3, 0, 0] S1x4096x1024
  dot_S4x1024x1024_S4096x1024_S4x1024x4096_2_1_01_0_n_n_wf : DotDims.WF S4x1024x1024 S4096x1024 S4x1024x4096 [2] [1] [0, 1] [0] [] []

variable [Facts₀]

def dot_S4x1024x1024_S4096x1024_S4x1024x4096_2_1_01_0_n_n : DotDims S4x1024x1024 S4096x1024 S4x1024x4096 where
  lhsContracting := [2]
  rhsContracting := [1]
  lhsNonContracting := [0, 1]
  rhsNonContracting := [0]
  lhsBatch := []
  rhsBatch := []
  wf := dot_S4x1024x1024_S4096x1024_S4x1024x4096_2_1_01_0_n_n_wf

class Facts : Prop extends Facts₀ where

variable [Facts]
-- ==== Proof.LstmCell.lean ====
/-
  The LSTM cell as ONE function of its seven argument arrays, index by index, on the extended reals.

  For a batch row `b`, a hidden unit `j` and a gate `g` (0 = input, 1 = forget, 2 = candidate, 3 = output) the
  pre-activation is
      pre g b j = (Σ_k x[b,k] · W_x[g,j,k] + Σ_k h[b,k] · W_h[g,j,k]) + (b_x[g,j] + b_h[g,j]),
  the two sums over the 1024 input features and the 1024 hidden features, grouped exactly so. With σ the logistic
  function `1 / (1 + e^(-t))` and tanh the hyperbolic tangent (both total on the extended reals, with their limits at
  the infinities), the three results at `(b, j)` are
      o      = σ (pre 3 b j)
      cell   = σ (pre 1 b j) · c[b,j] + σ (pre 0 b j) · tanh (pre 2 b j)
      hidden = o · tanh cell.
  Nothing here needs the inputs finite: the two programs below are this same expression, and the only law that joins
  them is that a product of two extended reals does not depend on the order of its factors.
-/
import Idealize.ShloMosaic.PureOps.Ideal
import Idealize.ShloMosaic.Lib.ValueIdx

noncomputable section

namespace Cert.LstmCell

open Idealize.ShloMosaic Idealize.ShloMosaic.ValueIdx

/-- An activation array: 4096 batch rows by 1024 features. -/
abbrev Act : Type := (⟨2, ![4096, 1024]⟩ : Shape).Idx → EReal
/-- A packed weight array: 4 gates, each 1024 hidden units by 1024 features. -/
abbrev Wts : Type := (⟨3, ![4, 1024, 1024]⟩ : Shape).Idx → EReal
/-- A packed bias array: 4 gates by 1024 hidden units. -/
abbrev Bias : Type := (⟨2, ![4, 1024]⟩ : Shape).Idx → EReal

/-- Gate `g`'s pre-activation at batch row `b` and hidden unit `j`: the input projection plus the hidden projection,
    plus the sum of the two biases. -/
def pre (x h : Act) (Wx Wh : Wts) (bx bh : Bias) (g : Fin 4) (b : Fin 4096) (j : Fin 1024) : EReal :=
  ((∑ k : Fin 1024, x (ix2 b k) * Wx (ix3 g j k)) + (∑ k : Fin 1024, h (ix2 b k) * Wh (ix3 g j k)))
    + (bx (ix2 g j) + bh (ix2 g j))

/-- The output gate: the logistic function of gate 3's pre-activation. -/
def outGate (x h : Act) (Wx Wh : Wts) (bx bh : Bias) : Act := fun i =>
  Ideal.logistic (pre x h Wx Wh bx bh 3 (i 0) (i 1))

/-- The new cell state: forget gate times the old cell state, plus input gate times the candidate. -/
def cell (x h c : Act) (Wx Wh : Wts) (bx bh : Bias) : Act := fun i =>
  Ideal.logistic (pre x h Wx Wh bx bh 1 (i 0) (i 1)) * c i
    + Ideal.logistic (pre x h Wx Wh bx bh 0 (i 0) (i 1)) * Ideal.tanh (pre x h Wx Wh bx bh 2 (i 0) (i 1))

/-- The new hidden state: output gate times tanh of the new cell state. -/
def hidden (x h c : Act) (Wx Wh : Wts) (bx bh : Bias) : Act := fun i =>
  outGate x h Wx Wh bx bh i * Ideal.tanh (cell x h c Wx Wh bx bh i)

end Cert.LstmCell

end
-- ==== Proof.KernelBlock.lean ====
/-
  The kernel's body, read at one entry of a block of 256 batch rows.

  The body loads a block of `x`, of `h` and of `c` (256 rows each), all four gates' weights and both bias arrays. For
  each gate `g` it takes the weight slab `[g, :, :]`, contracts the block of `x` with it over the 1024 features (a
  product with the slab's rows, so entry `(p, q)` is `Σ_k x[p,k] · W[g,q,k]`; the narrowing to bf16 is the identity on
  the extended reals), does the same for `h`, adds the two, and adds row `g` of `b_x + b_h` broadcast over the 256 rows.
  The gates are then the logistic function and tanh of those, combined entry by entry.
-/
import proofs.«178058_j9131100472067_1_alg».proof.Proof.Gen.KernelIdeal.Frame
import proofs.«178058_j9131100472067_1_alg».proof.Proof.LstmCell
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open Facts₀

/-! ## The contraction of a block's rows with a slab's rows -/

theorem lhs_row (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_feature (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_unit (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_feature (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Rows against rows: entry `(p, q)` of the product into a zero accumulator is the sum over the features of row `p`
    of the left operand times row `q` of the right. -/
theorem rows_dot_rows (a : FVec Ideal S256x1024 .bf16) (w : FVec Ideal S1024x1024 .bf16) (p : Fin 256) (q : Fin 1024) :
    matmul dot_S256x1024_S1024x1024_S256x1024_1_1_0_0_n_n none a w (constant S256x1024 .f32 0x00000000#32) (ix2 p q)
      = ∑ k : Fin 1024, a (ix2 p k) * w (ix2 q k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 p q) ((ValueIdx.contrEquiv1 dot_S256x1024_S1024x1024_S256x1024_1_1_0_0_n_n 1024 rfl rfl).symm k) = ix2 p k := funext fun a => Fin.ext (by
    match a with
    | ⟨0, _⟩ => exact lhs_row _ _
    | ⟨1, _⟩ => exact (lhs_feature _ _).trans hk)
  have er : dot_S256x1024_S1024x1024_S256x1024_1_1_0_0_n_n.rhsIdx (ix2 p q) ((ValueIdx.contrEquiv1 dot_S256x1024_S1024x1024_S256x1024_1_1_0_0_n_n 1024 rfl rfl).symm k) = ix2 q k := funext fun a => Fin.ext (by
    match a with
    | ⟨0, _⟩ => exact rhs_unit _ _
    | ⟨1, _⟩ => exact (rhs_feature _ _).trans hk)
  rw [el, er]

/-- The same with the right operand a `[1, 1024, 1024]` slab viewed as a matrix. -/
theorem rows_dot_slab (a : FVec Ideal S256x1024 .bf16) (w : Vec Ideal S1x1024x1024 .bf16) (p : Fin 256) (q : Fin 1024) :
    matmul dot_S256x1024_S1024x1024_S256x1024_1_1_0_0_n_n none a (shapeCast S1024x1024 w Facts₀.shapeCasts_S1x1024x1024_S1024x1024 : FVec Ideal S1024x1024 .bf16) (constant S256x1024 .f32 0x00000000#32) (ix2 p q)
      = ∑ k : Fin 1024, a (ix2 p k) * w (ix3 (0 : Fin 1) q k) := by
  refine (rows_dot_rows a _ p q).trans (Finset.sum_congr rfl fun k _ => ?_)
  exact congrArg (a (ix2 p k) * ·) (shapeCast_1ab_ab_apply w Facts₀.shapeCasts_S1x1024x1024_S1024x1024 q k)

/-! ## One row of the bias sum, broadcast over the block's rows -/

theorem bias_row (b : FVec Ideal S4x1024 .f32) (o : Nat) (hs : S4x1024.Slices ![o, 0] S1x1024) (g : Fin 4) (hg : g.val = o)
    (p : Fin 256) (q : Fin 1024) :
    broadcastTo S256x1024 (shapeCast S1x1024 (shapeCast S1024 (extractStridedSlice S1x1024 ![o, 0] b hs) Facts₀.shapeCasts_S1x1024_S1024)
      Facts₀.shapeCasts_S1024_S1x1024) Facts₀.broadcasts_S1x1024_S256x1024 (ix2 p q) = b (ix2 g q) := by
  refine (broadcastTo_1b_ab_apply _ Facts₀.broadcasts_S1x1024_S256x1024 p q).trans ?_
  refine (shapeCast_a_1a_apply _ Facts₀.shapeCasts_S1024_S1x1024 0 q).trans ?_
  refine (shapeCast_1a_a_apply _ Facts₀.shapeCasts_S1x1024_S1024 q).trans ?_
  exact slice2_axis0_apply o b hs 0 q g (by show g.val = o + 0; omega)

/-! ## A weight slab loaded out of the four -/

theorem slab_load (X : Vec Ideal S4x1024x1024 .bf16) (o : Nat) (inb : ∀ a, (![o, 0, 0] : Fin 3 → Nat) a + S1x1024x1024.size a ≤ S4x1024x1024.size a)
    (g : Fin 4) (hg : g.val = o) (q k : Fin 1024) :
    View.ld X (Rect.unit (s := S4x1024x1024) ![o, 0, 0] S1x1024x1024.size inb) (ix3 (0 : Fin 1) q k) = X (ix3 g q k) := by
  show X ((Rect.unit (s := S4x1024x1024) ![o, 0, 0] S1x1024x1024.size inb).emb (ix3 (0 : Fin 1) q k)) = _
  refine congrArg X (funext fun a => Fin.ext ?_)
  rw [Rect.emb_apply]
  match a with
  | ⟨0, _⟩ => show o + 1 * 0 = g.val; omega
  | ⟨1, _⟩ => show 0 + 1 * q.val = q.val; omega
  | ⟨2, _⟩ => show 0 + 1 * k.val = k.val; omega

/-! ## The payloads at an entry -/

/-- A gate's pre-activation at row `p` of the block and hidden unit `q`, over the two loaded slabs and the bias sum. -/
def rowsPre (a₁ a₂ : FVec Ideal S256x1024 .bf16) (w₁ w₂ : Vec Ideal S1x1024x1024 .bf16) (b : FVec Ideal S4x1024 .f32)
    (g : Fin 4) (p : Fin 256) (q : Fin 1024) : EReal :=
  ((∑ k : Fin 1024, a₁ (ix2 p k) * w₁ (ix3 (0 : Fin 1) q k)) + (∑ k : Fin 1024, a₂ (ix2 p k) * w₂ (ix3 (0 : Fin 1) q k)))
    + b (ix2 g q)

/-- The body's expression for a gate's pre-activation, read at `(p, q)`. -/
theorem gate_pre (a₁ a₂ : FVec Ideal S256x1024 .bf16) (w₁ w₂ : Vec Ideal S1x1024x1024 .bf16) (b : FVec Ideal S4x1024 .f32)
    (o : Nat) (hs : S4x1024.Slices ![o, 0] S1x1024) (g : Fin 4) (hg : g.val = o) (p : Fin 256) (q : Fin 1024) :
    addf (addf (matmul dot_S256x1024_S1024x1024_S256x1024_1_1_0_0_n_n none a₁ (shapeCast S1024x1024 w₁ Facts₀.shapeCasts_S1x1024x1024_S1024x1024 : FVec Ideal S1024x1024 .bf16) (constant S256x1024 .f32 0x00000000#32))
               (matmul dot_S256x1024_S1024x1024_S256x1024_1_1_0_0_n_n none a₂ (shapeCast S1024x1024 w₂ Facts₀.shapeCasts_S1x1024x1024_S1024x1024 : FVec Ideal S1024x1024 .bf16) (constant S256x1024 .f32 0x00000000#32)))
         (broadcastTo S256x1024 (shapeCast S1x1024 (shapeCast S1024 (extractStridedSlice S1x1024 ![o, 0] b hs) Facts₀.shapeCasts_S1x1024_S1024)
            Facts₀.shapeCasts_S1024_S1x1024) Facts₀.broadcasts_S1x1024_S256x1024) (ix2 p q)
      = rowsPre a₁ a₂ w₁ w₂ b g p q :=
  congrArg₂ (· + ·) (congrArg₂ (· + ·) (rows_dot_slab a₁ w₁ p q) (rows_dot_slab a₂ w₂ p q)) (bias_row b o hs g hg p q)

variable (v0 v2 v4 : Vec Ideal S256x1024 .f32) (v5 v6 : Vec Ideal S4x1024 .f32)
variable (v1 v3 : FVec Ideal S256x1024 .bf16) (v7 : FVec Ideal S4x1024 .f32) (v19 v31 : FVec Ideal S256x1024 .f32)

theorem pay4_apply (v8 v10 : Vec Ideal S1x1024x1024 .bf16) (p : Fin 256) (q : Fin 1024) :
    k0_pay4 v0 v2 v5 v6 v8 v10 (ix2 p q) = rowsPre (k0_pay1 v0) (k0_pay2 v2) v8 v10 (k0_pay3 v5 v6) 0 p q := by
  unfold k0_pay4
  exact gate_pre (k0_pay1 v0) (k0_pay2 v2) v8 v10 (k0_pay3 v5 v6) 0 _ 0 rfl p q

theorem pay5_apply (v20 v22 : Vec Ideal S1x1024x1024 .bf16) (p : Fin 256) (q : Fin 1024) :
    k0_pay5 v0 v2 v5 v6 v20 v22 (ix2 p q) = rowsPre (k0_pay1 v0) (k0_pay2 v2) v20 v22 (k0_pay3 v5 v6) 1 p q := by
  unfold k0_pay5
  exact gate_pre (k0_pay1 v0) (k0_pay2 v2) v20 v22 (k0_pay3 v5 v6) 1 _ 1 rfl p q

theorem pay6_apply (v44 v46 : Vec Ideal S1x1024x1024 .bf16) (p : Fin 256) (q : Fin 1024) :
    k0_pay6 v1 v3 v7 v44 v46 (ix2 p q) = Ideal.logistic (rowsPre v1 v3 v44 v46 v7 3 p q) := by
  unfold k0_pay6
  exact congrArg Ideal.logistic (gate_pre v1 v3 v44 v46 v7 3 _ 3 rfl p q)

theorem pay7_apply (v32 v34 : Vec Ideal S1x1024x1024 .bf16) (p : Fin 256) (q : Fin 1024) :
    k0_pay7 v1 v3 v4 v7 v19 v31 v32 v34 (ix2 p q)
      = Ideal.logistic (v31 (ix2 p q)) * v4 (ix2 p q) + Ideal.logistic (v19 (ix2 p q)) * Ideal.tanh (rowsPre v1 v3 v32 v34 v7 2 p q) := by
  unfold k0_pay7
  exact congrArg (fun z => Ideal.logistic (v31 (ix2 p q)) * v4 (ix2 p q) + Ideal.logistic (v19 (ix2 p q)) * Ideal.tanh z)
    (gate_pre v1 v3 v32 v34 v7 2 _ 2 rfl p q)

theorem pay8_apply (v32 v34 v44 v46 : Vec Ideal S1x1024x1024 .bf16) (p : Fin 256) (q : Fin 1024) :
    k0_pay8 v1 v3 v4 v7 v19 v31 v32 v34 v44 v46 (ix2 p q)
      = k0_pay6 v1 v3 v7 v44 v46 (ix2 p q) * Ideal.tanh (k0_pay7 v1 v3 v4 v7 v19 v31 v32 v34 (ix2 p q)) := rfl

/-! ## The three output buffers at an entry, over the input blocks -/

/-- Gate `g`'s pre-activation at row `p` of the block and hidden unit `q`, over the whole weight and bias arrays. -/
def blkPre (x0 x1 : Vec Ideal S256x1024 .f32) (x3 x4 : Vec Ideal S4x1024x1024 .bf16) (x5 x6 : Vec Ideal S4x1024 .f32)
    (g : Fin 4) (p : Fin 256) (q : Fin 1024) : EReal :=
  ((∑ k : Fin 1024, x0 (ix2 p k) * x3 (ix3 g q k)) + (∑ k : Fin 1024, x1 (ix2 p k) * x4 (ix3 g q k)))
    + (x5 (ix2 g q) + x6 (ix2 g q))

variable (x0 x1 x2 : Vec Ideal S256x1024 .f32) (x3 x4 : Vec Ideal S4x1024x1024 .bf16) (x5 x6 : Vec Ideal S4x1024 .f32)

/-- With slab `g` loaded out of each weight array, the loaded form is the whole-array form: narrowing a block is the
    identity, and the bias sum is entry by entry. -/
theorem rowsPre_loaded (o : Nat) (inb : ∀ a, (![o, 0, 0] : Fin 3 → Nat) a + S1x1024x1024.size a ≤ S4x1024x1024.size a)
    (g : Fin 4) (hg : g.val = o) (p : Fin 256) (q : Fin 1024) :
    rowsPre (k0_pay1 x0) (k0_pay2 x1) (View.ld x3 (Rect.unit (s := S4x1024x1024) ![o, 0, 0] S1x1024x1024.size inb))
      (View.ld x4 (Rect.unit (s := S4x1024x1024) ![o, 0, 0] S1x1024x1024.size inb)) (k0_pay3 x5 x6) g p q
      = blkPre x0 x1 x3 x4 x5 x6 g p q :=
  congrArg₂ (· + ·) (congrArg₂ (· + ·)
    (Finset.sum_congr rfl fun k _ => congrArg (x0 (ix2 p k) * ·) (slab_load x3 o inb g hg q k))
    (Finset.sum_congr rfl fun k _ => congrArg (x1 (ix2 p k) * ·) (slab_load x4 o inb g hg q k))) rfl

theorem zeros2 : (![0, 0] : Fin 2 → Nat) = fun _ => 0 := funext fun a => by fin_cases a <;> rfl

/-- The first output buffer: the output gate. -/
theorem out7_apply (p : Fin 256) (q : Fin 1024) :
    out0_7 x0 x1 x2 x3 x4 x5 x6 (ix2 p q) = Ideal.logistic (blkPre x0 x1 x3 x4 x5 x6 3 p q) := by
  unfold out0_7
  rw [View.canon_unit_zero zeros2]
  simp only [View.ld_unit_zero (S := S256x1024) zeros2, View.ld_unit_zero (S := S4x1024) zeros2]
  refine (pay6_apply (k0_pay1 x0) (k0_pay2 x1) (k0_pay3 x5 x6) _ _ p q).trans ?_
  exact congrArg Ideal.logistic (rowsPre_loaded x0 x1 x3 x4 x5 x6 3 _ 3 rfl p q)

/-- The third output buffer: the new cell state. -/
theorem out9_apply (p : Fin 256) (q : Fin 1024) :
    out0_9 x0 x1 x2 x3 x4 x5 x6 (ix2 p q)
      = Ideal.logistic (blkPre x0 x1 x3 x4 x5 x6 1 p q) * x2 (ix2 p q)
        + Ideal.logistic (blkPre x0 x1 x3 x4 x5 x6 0 p q) * Ideal.tanh (blkPre x0 x1 x3 x4 x5 x6 2 p q) := by
  unfold out0_9
  rw [View.canon_unit_zero zeros2]
  simp only [View.ld_unit_zero (S := S256x1024) zeros2, View.ld_unit_zero (S := S4x1024) zeros2]
  refine (pay7_apply x2 (k0_pay1 x0) (k0_pay2 x1) (k0_pay3 x5 x6) _ _ _ _ p q).trans ?_
  have e0 := (pay4_apply x0 x1 x5 x6 (View.ld x3 r0_2) (View.ld x4 r0_2) p q).trans (rowsPre_loaded x0 x1 x3 x4 x5 x6 0 _ 0 rfl p q)
  have e1 := (pay5_apply x0 x1 x5 x6 (View.ld x3 r0_3) (View.ld x4 r0_3) p q).trans (rowsPre_loaded x0 x1 x3 x4 x5 x6 1 _ 1 rfl p q)
  have e2 := rowsPre_loaded x0 x1 x3 x4 x5 x6 2 Facts₀.inb_S4x1024x1024_S1x1024x1024_2_0_0 2 rfl p q
  rw [e0, e1]
  exact congrArg (fun z => Ideal.logistic (blkPre x0 x1 x3 x4 x5 x6 1 p q) * x2 (ix2 p q)
    + Ideal.logistic (blkPre x0 x1 x3 x4 x5 x6 0 p q) * Ideal.tanh z) e2

/-- The second output buffer: the output gate times tanh of the new cell state. -/
theorem out8_apply (p : Fin 256) (q : Fin 1024) :
    out0_8 x0 x1 x2 x3 x4 x5 x6 (ix2 p q)
      = out0_7 x0 x1 x2 x3 x4 x5 x6 (ix2 p q) * Ideal.tanh (out0_9 x0 x1 x2 x3 x4 x5 x6 (ix2 p q)) := by
  unfold out0_8 out0_7 out0_9
  simp only [View.canon_unit_zero (S := S256x1024) zeros2]
  rfl

/-! ## From the blocks to the arrays -/

/-- If the blocks are the arrays' rows `r` (for `x`, `h`) and the weights and biases themselves at hidden unit `j`, the
    block's pre-activation at `(p, q)` is the cell's at `(r, j)`. -/
theorem blkPre_eq_pre (X H : Cert.LstmCell.Act) (Wx Wh : Cert.LstmCell.Wts) (Bx Bh : Cert.LstmCell.Bias)
    (b0 b1 : Vec Ideal S256x1024 .f32) (b3 b4 : Vec Ideal S4x1024x1024 .bf16) (b5 b6 : Vec Ideal S4x1024 .f32)
    (p : Fin 256) (q : Fin 1024) (r : Fin 4096) (j : Fin 1024)
    (h0 : ∀ k, b0 (ix2 p k) = X (ix2 r k)) (h1 : ∀ k, b1 (ix2 p k) = H (ix2 r k))
    (h3 : ∀ g k, b3 (ix3 g q k) = Wx (ix3 g j k)) (h4 : ∀ g k, b4 (ix3 g q k) = Wh (ix3 g j k))
    (h5 : ∀ g, b5 (ix2 g q) = Bx (ix2 g j)) (h6 : ∀ g, b6 (ix2 g q) = Bh (ix2 g j)) (g : Fin 4) :
    blkPre b0 b1 b3 b4 b5 b6 g p q = Cert.LstmCell.pre X H Wx Wh Bx Bh g r j := by
  unfold blkPre Cert.LstmCell.pre
  simp only [h0, h1, h3, h4, h5, h6]

end Cert.KernelIdeal.Block

end
-- ==== Proof.KernelIsCell.lean ====
/-
  The kernel computes the LSTM cell of `Cert.LstmCell`.

  The grid has sixteen points; point `t` stages rows 256·t … 256·t + 255 of x, h and c, and the whole of the two weight
  arrays (narrowed to bf16 by the program before the call: the identity on the extended reals) and of the two bias
  arrays, and writes rows 256·t … 256·t + 255 of each of the three results. Entry (p, q) of what point t writes is the
  cell's value at (256·t + p, q) (Proof/KernelBlock.lean reads the body there), and the sixteen blocks tile the 4096
  rows, so each result array ends as the cell's function of the arguments.
-/
import proofs.«178058_j9131100472067_1_alg».proof.Proof.Gen.KernelIdeal.Value
import proofs.«178058_j9131100472067_1_alg».proof.Proof.KernelBlock
import Idealize.ShloMosaic.Lib.StableHlo.Run

noncomputable section

namespace Cert.KernelIdeal.IsCell

open Cert.KernelIdeal Cert.KernelIdeal.Gen Cert.KernelIdeal.Block Cert.LstmCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arguments, by name -/

abbrev xs (c : Dev nD) : Act := m ((c : Thread nD τ).loc main_arg0)
abbrev hs (c : Dev nD) : Act := m ((c : Thread nD τ).loc main_arg1)
abbrev cs (c : Dev nD) : Act := m ((c : Thread nD τ).loc main_arg2)
abbrev wx (c : Dev nD) : Wts := m ((c : Thread nD τ).loc main_arg3)
abbrev wh (c : Dev nD) : Wts := m ((c : Thread nD τ).loc main_arg4)
abbrev bx (c : Dev nD) : Bias := m ((c : Thread nD τ).loc main_arg5)
abbrev bh (c : Dev nD) : Bias := m ((c : Thread nD τ).loc main_arg6)

/-- The two narrowed weight arrays the call stages are the weight arguments themselves, on the extended reals. -/
theorem staged_wx (c : Dev nD) : (V m c main_v0 : S4x1024x1024.Idx → EReal) = wx m c := by
  dsimp only [Gen.V, Gen.hostOps0]
  after_results
  rfl
theorem staged_wh (c : Dev nD) : (V m c main_v1 : S4x1024x1024.Idx → EReal) = wh m c := by
  dsimp only [Gen.V, Gen.hostOps0]
  after_results
  rfl

/-! ## Where a block sits in its array -/

/-- The index maps over the sixteen points: a row-blocked window is at block (t, 0), a whole-array one at the origin.
    (Windows 1, 2, 7, 8, 9 have window 0's index map, window 4 has window 3's, window 6 has window 5's.) -/
theorem idx_rows : ∀ t : Fin cfg0.N, win0_0.index t (0 : Fin 2) = t.val ∧ win0_0.index t (1 : Fin 2) = 0
    ∧ win0_3.index t (0 : Fin 3) = 0 ∧ win0_3.index t (1 : Fin 3) = 0 ∧ win0_3.index t (2 : Fin 3) = 0
    ∧ win0_5.index t (0 : Fin 2) = 0 ∧ win0_5.index t (1 : Fin 2) = 0 :=
  (by decide +kernel : ∀ t : Fin grid0.N, _)

/-- Row p of point t's block is row 256·t + p of the array. -/
def row (t : Fin cfg0.N) (p : Fin 256) : Fin 4096 :=
  ⟨t.val * 256 + p.val, by have h := t.isLt; have hN : cfg0.N = 16 := N_0; have := p.isLt; omega⟩

/-- An entry (p, k) of point t's block of a row-blocked window is entry (256·t + p, k) of its array. -/
theorem emb_rows (t : Fin cfg0.N) (p : Fin 256) (k : Fin 1024) :
    ((cfg0.win 0).blk t).view.emb (ix2 p k) = ix2 (row t p) k := by
  obtain ⟨e0, e1, -⟩ := idx_rows t
  funext a; apply Fin.ext
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- An entry of a whole-array window's block is the same entry of its array. -/
theorem emb_wts (t : Fin cfg0.N) (g : Fin 4) (q k : Fin 1024) :
    ((cfg0.win 3).blk t).view.emb (ix3 g q k) = ix3 g q k := by
  obtain ⟨-, -, e0, e1, e2, -⟩ := idx_rows t
  funext a; apply Fin.ext
  match a with
  | ⟨0, _⟩ => show win0_3.index t (0 : Fin 3) * 4 + 1 * g.val = g.val; rw [e0]; omega
  | ⟨1, _⟩ => show win0_3.index t (1 : Fin 3) * 1024 + 1 * q.val = q.val; rw [e1]; omega
  | ⟨2, _⟩ => show win0_3.index t (2 : Fin 3) * 1024 + 1 * k.val = k.val; rw [e2]; omega
theorem emb_bias (t : Fin cfg0.N) (g : Fin 4) (q : Fin 1024) :
    ((cfg0.win 5).blk t).view.emb (ix2 g q) = ix2 g q := by
  obtain ⟨-, -, -, -, -, e0, e1⟩ := idx_rows t
  funext a; apply Fin.ext
  match a with
  | ⟨0, _⟩ => show win0_5.index t (0 : Fin 2) * 4 + 1 * g.val = g.val; rw [e0]; omega
  | ⟨1, _⟩ => show win0_5.index t (1 : Fin 2) * 1024 + 1 * q.val = q.val; rw [e1]; omega

/-! ## The input blocks, read -/

theorem x_blk (c : Dev nD) (t : Fin cfg0.N) (p : Fin 256) (k : Fin 1024) : iblk m c 0 t (ix2 p k) = xs m c (ix2 (row t p) k) := by
  show V m c main_arg0 (((cfg0.win 0).blk t).view.emb (ix2 p k)) = _
  exact (congrFun (V_main_arg0 m c) _).trans (congrArg (xs m c) (emb_rows t p k))
theorem h_blk (c : Dev nD) (t : Fin cfg0.N) (p : Fin 256) (k : Fin 1024) : iblk m c 1 t (ix2 p k) = hs m c (ix2 (row t p) k) := by
  show V m c main_arg1 (((cfg0.win 1).blk t).view.emb (ix2 p k)) = _
  exact (congrFun (V_main_arg1 m c) _).trans (congrArg (hs m c) (emb_rows t p k))
theorem c_blk (c : Dev nD) (t : Fin cfg0.N) (p : Fin 256) (k : Fin 1024) : iblk m c 2 t (ix2 p k) = cs m c (ix2 (row t p) k) := by
  show V m c main_arg2 (((cfg0.win 2).blk t).view.emb (ix2 p k)) = _
  exact (congrFun (V_main_arg2 m c) _).trans (congrArg (cs m c) (emb_rows t p k))
theorem wx_blk (c : Dev nD) (t : Fin cfg0.N) (g : Fin 4) (q k : Fin 1024) : iblk m c 3 t (ix3 g q k) = wx m c (ix3 g q k) := by
  show V m c main_v0 (((cfg0.win 3).blk t).view.emb (ix3 g q k)) = _
  exact (congrArg (V m c main_v0) (emb_wts t g q k)).trans (congrFun (staged_wx m c) _)
theorem wh_blk (c : Dev nD) (t : Fin cfg0.N) (g : Fin 4) (q k : Fin 1024) : iblk m c 4 t (ix3 g q k) = wh m c (ix3 g q k) := by
  show V m c main_v1 (((cfg0.win 4).blk t).view.emb (ix3 g q k)) = _
  exact (congrArg (V m c main_v1) (emb_wts t g q k)).trans (congrFun (staged_wh m c) _)
theorem bx_blk (c : Dev nD) (t : Fin cfg0.N) (g : Fin 4) (q : Fin 1024) : iblk m c 5 t (ix2 g q) = bx m c (ix2 g q) := by
  show V m c main_arg5 (((cfg0.win 5).blk t).view.emb (ix2 g q)) = _
  exact (congrFun (V_main_arg5 m c) _).trans (congrArg (bx m c) (emb_bias t g q))
theorem bh_blk (c : Dev nD) (t : Fin cfg0.N) (g : Fin 4) (q : Fin 1024) : iblk m c 6 t (ix2 g q) = bh m c (ix2 g q) := by
  show V m c main_arg6 (((cfg0.win 6).blk t).view.emb (ix2 g q)) = _
  exact (congrFun (V_main_arg6 m c) _).trans (congrArg (bh m c) (emb_bias t g q))

/-! ## What point t computes at (p, q) is the cell at (256·t + p, q) -/

theorem gate_at (c : Dev nD) (t : Fin cfg0.N) (p : Fin 256) (q : Fin 1024) (g : Fin 4) :
    blkPre (iblk m c 0 t) (iblk m c 1 t) (iblk m c 3 t) (iblk m c 4 t) (iblk m c 5 t) (iblk m c 6 t) g p q
      = pre (xs m c) (hs m c) (wx m c) (wh m c) (bx m c) (bh m c) g (row t p) q :=
  blkPre_eq_pre (xs m c) (hs m c) (wx m c) (wh m c) (bx m c) (bh m c)
    (iblk m c 0 t) (iblk m c 1 t) (iblk m c 3 t) (iblk m c 4 t) (iblk m c 5 t) (iblk m c 6 t)
    p q (row t p) q (x_blk m c t p) (h_blk m c t p) (fun g k => wx_blk m c t g q k) (fun g k => wh_blk m c t g q k)
    (fun g => bx_blk m c t g q) (fun g => bh_blk m c t g q) g

theorem outGate_at (c : Dev nD) (t : Fin cfg0.N) (p : Fin 256) (q : Fin 1024) :
    out0_7 (iblk m c 0 t) (iblk m c 1 t) (iblk m c 2 t) (iblk m c 3 t) (iblk m c 4 t) (iblk m c 5 t) (iblk m c 6 t) (ix2 p q)
      = outGate (xs m c) (hs m c) (wx m c) (wh m c) (bx m c) (bh m c) (ix2 (row t p) q) :=
  (out7_apply (iblk m c 0 t) (iblk m c 1 t) (iblk m c 2 t) (iblk m c 3 t) (iblk m c 4 t) (iblk m c 5 t) (iblk m c 6 t) p q).trans
    (congrArg Ideal.logistic (gate_at m c t p q 3))

theorem cell_at (c : Dev nD) (t : Fin cfg0.N) (p : Fin 256) (q : Fin 1024) :
    out0_9 (iblk m c 0 t) (iblk m c 1 t) (iblk m c 2 t) (iblk m c 3 t) (iblk m c 4 t) (iblk m c 5 t) (iblk m c 6 t) (ix2 p q)
      = cell (xs m c) (hs m c) (cs m c) (wx m c) (wh m c) (bx m c) (bh m c) (ix2 (row t p) q) := by
  refine (out9_apply (iblk m c 0 t) (iblk m c 1 t) (iblk m c 2 t) (iblk m c 3 t) (iblk m c 4 t) (iblk m c 5 t) (iblk m c 6 t) p q).trans ?_
  rw [gate_at m c t p q 1, gate_at m c t p q 0, gate_at m c t p q 2, c_blk m c t p q]
  rfl

theorem hidden_at (c : Dev nD) (t : Fin cfg0.N) (p : Fin 256) (q : Fin 1024) :
    out0_8 (iblk m c 0 t) (iblk m c 1 t) (iblk m c 2 t) (iblk m c 3 t) (iblk m c 4 t) (iblk m c 5 t) (iblk m c 6 t) (ix2 p q)
      = hidden (xs m c) (hs m c) (cs m c) (wx m c) (wh m c) (bx m c) (bh m c) (ix2 (row t p) q) := by
  refine (out8_apply (iblk m c 0 t) (iblk m c 1 t) (iblk m c 2 t) (iblk m c 3 t) (iblk m c 4 t) (iblk m c 5 t) (iblk m c 6 t) p q).trans ?_
  rw [outGate_at m c t p q, cell_at m c t p q]
  rfl

/-! ## What each point writes back is a block of the cell's function -/

theorem flushed7_eq (c : Dev nD) (t : Fin cfg0.N) :
    (dats m 0 c).flushed 7 t
      = ((cfg0.win 7).blk t).view.read (Elt Ideal) (outGate (xs m c) (hs m c) (wx m c) (wh m c) (bx m c) (bh m c)) := by
  rw [Value.flushed7]
  funext y
  obtain ⟨p, q, rfl⟩ : ∃ (p : Fin 256) (q : Fin 1024), y = ix2 p q := ⟨y 0, y 1, eq_ix2 y⟩
  show out0_7 (iblk m c 0 t) (iblk m c 1 t) (iblk m c 2 t) (iblk m c 3 t) (iblk m c 4 t) (iblk m c 5 t) (iblk m c 6 t) (ix2 p q)
    = outGate (xs m c) (hs m c) (wx m c) (wh m c) (bx m c) (bh m c) (((cfg0.win 7).blk t).view.emb (ix2 p q))
  exact (outGate_at m c t p q).trans (congrArg _ (emb_rows t p q).symm)

theorem flushed8_eq (c : Dev nD) (t : Fin cfg0.N) :
    (dats m 0 c).flushed 8 t
      = ((cfg0.win 8).blk t).view.read (Elt Ideal) (hidden (xs m c) (hs m c) (cs m c) (wx m c) (wh m c) (bx m c) (bh m c)) := by
  rw [Value.flushed8]
  funext y
  obtain ⟨p, q, rfl⟩ : ∃ (p : Fin 256) (q : Fin 1024), y = ix2 p q := ⟨y 0, y 1, eq_ix2 y⟩
  show out0_8 (iblk m c 0 t) (iblk m c 1 t) (iblk m c 2 t) (iblk m c 3 t) (iblk m c 4 t) (iblk m c 5 t) (iblk m c 6 t) (ix2 p q)
    = hidden (xs m c) (hs m c) (cs m c) (wx m c) (wh m c) (bx m c) (bh m c) (((cfg0.win 8).blk t).view.emb (ix2 p q))
  exact (hidden_at m c t p q).trans (congrArg _ (emb_rows t p q).symm)

theorem flushed9_eq (c : Dev nD) (t : Fin cfg0.N) :
    (dats m 0 c).flushed 9 t
      = ((cfg0.win 9).blk t).view.read (Elt Ideal) (cell (xs m c) (hs m c) (cs m c) (wx m c) (wh m c) (bx m c) (bh m c)) := by
  rw [Value.flushed9]
  funext y
  obtain ⟨p, q, rfl⟩ : ∃ (p : Fin 256) (q : Fin 1024), y = ix2 p q := ⟨y 0, y 1, eq_ix2 y⟩
  show out0_9 (iblk m c 0 t) (iblk m c 1 t) (iblk m c 2 t) (iblk m c 3 t) (iblk m c 4 t) (iblk m c 5 t) (iblk m c 6 t) (ix2 p q)
    = cell (xs m c) (hs m c) (cs m c) (wx m c) (wh m c) (bx m c) (bh m c) (((cfg0.win 9).blk t).view.emb (ix2 p q))
  exact (cell_at m c t p q).trans (congrArg _ (emb_rows t p q).symm)

/-! ## The blocks tile the arrays -/

/-- An index of the first result array is in point t's block iff each coordinate is in the block's range. -/
theorem mem_blk (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v2_0).slice (win0_7.rect t)).set ↔ _
  rw [View.set_slice_whole, Rect.mem_set_unit]
  exact Iff.rfl

/-- Row r of the array is in the block of point r / 256: the sixteen blocks of 256 rows tile the 4096 rows. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 16 := N_0
  have ht : (i 0).val / 256 < cfg0.N := by omega
  refine ⟨⟨(i 0).val / 256, ht⟩, flush0_7 _, ?_⟩
  rw [mem_blk]
  obtain ⟨e0, e1, -⟩ := idx_rows ⟨(i 0).val / 256, ht⟩
  intro a
  match a with
  | ⟨0, _⟩ =>
    show win0_0.index ⟨(i 0).val / 256, ht⟩ (0 : Fin 2) * 256 ≤ (i 0).val ∧ (i 0).val < win0_0.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_0.index ⟨(i 0).val / 256, ht⟩ (1 : Fin 2) * 1024 ≤ (i 1).val ∧ (i 1).val < win0_0.index ⟨(i 0).val / 256, ht⟩ (1 : Fin 2) * 1024 + 1024
    rw [e1]; omega

/-- The other two result windows have the same blocks. -/
theorem cover8 (i : S4096x1024.Idx) : ∃ t : Fin cfg0.N, (cfg0.win 8).flush t = true ∧ i ∈ ((cfg0.win 8).blk t).view.set := by
  obtain ⟨t, -, h⟩ := cover7 i
  exact ⟨t, flush0_8 t, h⟩
theorem cover9 (i : S4096x1024.Idx) : ∃ t : Fin cfg0.N, (cfg0.win 9).flush t = true ∧ i ∈ ((cfg0.win 9).blk t).view.set := by
  obtain ⟨t, -, h⟩ := cover7 i
  exact ⟨t, flush0_9 t, h⟩

/-! ## The arrays after the run -/

theorem final7 (c : Dev nD) : (dats m 0 c).arrAt 7 cfg0.N = outGate (xs m c) (hs m c) (wx m c) (wh m c) (bx m c) (bh m c) :=
  (dats m 0 c).arrAt_eq_of_cover 7 (outGate (xs m c) (hs m c) (wx m c) (wh m c) (bx m c) (bh m c)) (fun t _ => flushed7_eq m c t) cover7
theorem final8 (c : Dev nD) : (dats m 0 c).arrAt 8 cfg0.N = hidden (xs m c) (hs m c) (cs m c) (wx m c) (wh m c) (bx m c) (bh m c) :=
  (dats m 0 c).arrAt_eq_of_cover 8 (hidden (xs m c) (hs m c) (cs m c) (wx m c) (wh m c) (bx m c) (bh m c)) (fun t _ => flushed8_eq m c t) cover8
theorem final9 (c : Dev nD) : (dats m 0 c).arrAt 9 cfg0.N = cell (xs m c) (hs m c) (cs m c) (wx m c) (wh m c) (bx m c) (bh m c) :=
  (dats m 0 c).arrAt_eq_of_cover 9 (cell (xs m c) (hs m c) (cs m c) (wx m c) (wh m c) (bx m c) (bh m c)) (fun t _ => flushed9_eq m c t) cover9

/-- Every weakly fair execution of the kernel's program terminates with the three results at the cell's functions of
    the arguments, and the arguments unchanged. -/
theorem run : θ_run defs (onTc (τ := τ) (main (F := Ideal))) ⟨m, fun _ => 0, ρ⟩ fun r => ∀ c : Dev nD,
      r.2.mem ((c : Thread nD τ).loc main_v2_0) = outGate (xs m c) (hs m c) (wx m c) (wh m c) (bx m c) (bh m c)
      ∧ r.2.mem ((c : Thread nD τ).loc main_v2_1) = hidden (xs m c) (hs m c) (cs m c) (wx m c) (wh m c) (bx m c) (bh m c)
      ∧ r.2.mem ((c : Thread nD τ).loc main_v2_2) = cell (xs m c) (hs m c) (cs m c) (wx m c) (wh m c) (bx m c) (bh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c),
      (h c).2.2.1.trans (final9 m c), (h c).2.2.2⟩)
    (Value.run_blocks m ρ)

end Cert.KernelIdeal.IsCell

end
-- ==== Proof.ReferenceIsCell.lean ====
/-
  The reference computes the LSTM cell of `Cert.LstmCell`.

  The reference stacks the four gates: one batched contraction `W_x[g,j,·] · x[b,·]` laid out (gate, unit, row) and
  transposed to (gate, row, unit), the same for `W_h` and `h`, their sum, and the bias sum `b_x + b_h` broadcast over
  the rows. Read at `(g, b, j)` that is `pre g b j`, after the two factors of each product are swapped. A gate is then
  the slice `[g : g+1]` reshaped to (row, unit) — the same entry, by `(b · 1024 + j) / 1024 = b` and
  `(b · 1024 + j) % 1024 = j` — and the logistic function is spelt `1 / (1 + exp (−t))`, which is what the logistic
  function of the extended reals is by definition, the float literal being the real 1.
-/
import proofs.«178058_j9131100472067_1_alg».proof.Proof.Gen.ReferenceIdeal.Read
import proofs.«178058_j9131100472067_1_alg».proof.Proof.LstmCell
import Idealize.ShloMosaic.Lib.IdealHost

noncomputable section

namespace Cert.ReferenceIdeal.IsCell

open Cert.ReferenceIdeal Cert.ReferenceIdeal.Read Idealize.ShloMosaic Idealize.ShloMosaic.ValueIdx Cert.LstmCell

variable (x0 x1 x2 : (⟨S4096x1024, .f32⟩ : BufTy).Contents (Elt Ideal))
variable (x3 x4 : (⟨S4x1024x1024, .f32⟩ : BufTy).Contents (Elt Ideal))
variable (x5 x6 : (⟨S4x1024, .f32⟩ : BufTy).Contents (Elt Ideal))

/-- The stacked pre-activations at (gate, row, unit). -/
theorem stacked (g : Fin 4) (b : Fin 4096) (j : Fin 1024) :
    val_main_v8 (F := Ideal) x0 x1 x3 x4 x5 x6 (ix3 g b j) = pre x0 x1 x3 x4 x5 x6 g b j := by
  have eWx : ∀ k : Fin 1024, lidx_main_v0 (idx_main_v1 (ix3 g b j)) k = ix3 g j k := fun k =>
    funext fun a => Fin.ext (by match a with | ⟨0, _⟩ => rfl | ⟨1, _⟩ => rfl | ⟨2, _⟩ => rfl)
  have ex : ∀ k : Fin 1024, ridx_main_v0 (idx_main_v1 (ix3 g b j)) k = ix2 b k := fun k =>
    funext fun a => Fin.ext (by match a with | ⟨0, _⟩ => rfl | ⟨1, _⟩ => rfl)
  have eWh : ∀ k : Fin 1024, lidx_main_v2 (idx_main_v3 (ix3 g b j)) k = ix3 g j k := fun k =>
    funext fun a => Fin.ext (by match a with | ⟨0, _⟩ => rfl | ⟨1, _⟩ => rfl | ⟨2, _⟩ => rfl)
  have eh : ∀ k : Fin 1024, ridx_main_v2 (idx_main_v3 (ix3 g b j)) k = ix2 b k := fun k =>
    funext fun a => Fin.ext (by match a with | ⟨0, _⟩ => rfl | ⟨1, _⟩ => rfl)
  have eb : idx_main_v6 (idx_main_v7 (ix3 g b j)) = ix2 g j :=
    funext fun a => Fin.ext (by match a with | ⟨0, _⟩ => rfl | ⟨1, _⟩ => rfl)
  rw [val_main_v8_apply, val_main_v4_apply, val_main_v1_apply, val_main_v3_apply, val_main_v0_apply,
    val_main_v2_apply, val_main_v7_apply, val_main_v6_apply, val_main_v5_apply, eb]
  simp only [Ideal.addf_def, eWx, ex, eWh, eh]
  unfold pre
  congr 2 <;> exact Finset.sum_congr rfl fun k _ => mul_comm _ _

/-- A slice `[g : g+1]` of the stack, reshaped to (row, unit), reads the stack at `(g, row, unit)`. -/
theorem gate0_idx (i : S4096x1024.Idx) : idx_main_v9 (idx_main_v10 i) = ix3 0 (i 0) (i 1) := by
  have h0 : (i 0).val < 4096 := (i 0).isLt
  have h1 : (i 1).val < 1024 := (i 1).isLt
  exact funext fun a => Fin.ext (by
    match a with
    | ⟨0, _⟩ => rfl
    | ⟨1, _⟩ => show ((i 0).val * 1024 + (i 1).val) / 1024 % 4096 = (i 0).val; omega
    | ⟨2, _⟩ => show ((i 0).val * 1024 + (i 1).val) % 1024 = (i 1).val; omega)
theorem gate1_idx (i : S4096x1024.Idx) : idx_main_v17 (idx_main_v18 i) = ix3 1 (i 0) (i 1) := by
  have h0 : (i 0).val < 4096 := (i 0).isLt
  have h1 : (i 1).val < 1024 := (i 1).isLt
  exact funext fun a => Fin.ext (by
    match a with
    | ⟨0, _⟩ => rfl
    | ⟨1, _⟩ => show ((i 0).val * 1024 + (i 1).val) / 1024 % 4096 = (i 0).val; omega
    | ⟨2, _⟩ => show ((i 0).val * 1024 + (i 1).val) % 1024 = (i 1).val; omega)
theorem gate2_idx (i : S4096x1024.Idx) : idx_main_v25 (idx_main_v26 i) = ix3 2 (i 0) (i 1) := by
  have h0 : (i 0).val < 4096 := (i 0).isLt
  have h1 : (i 1).val < 1024 := (i 1).isLt
  exact funext fun a => Fin.ext (by
    match a with
    | ⟨0, _⟩ => rfl
    | ⟨1, _⟩ => show ((i 0).val * 1024 + (i 1).val) / 1024 % 4096 = (i 0).val; omega
    | ⟨2, _⟩ => show ((i 0).val * 1024 + (i 1).val) % 1024 = (i 1).val; omega)
theorem gate3_idx (i : S4096x1024.Idx) : idx_main_v28 (idx_main_v29 i) = ix3 3 (i 0) (i 1) := by
  have h0 : (i 0).val < 4096 := (i 0).isLt
  have h1 : (i 1).val < 1024 := (i 1).isLt
  exact funext fun a => Fin.ext (by
    match a with
    | ⟨0, _⟩ => rfl
    | ⟨1, _⟩ => show ((i 0).val * 1024 + (i 1).val) / 1024 % 4096 = (i 0).val; omega
    | ⟨2, _⟩ => show ((i 0).val * 1024 + (i 1).val) % 1024 = (i 1).val; omega)

/-- So the reshaped slice `g` at (row, unit) is gate `g`'s pre-activation there. -/
theorem gate0 (i : S4096x1024.Idx) :
    val_main_v8 (F := Ideal) x0 x1 x3 x4 x5 x6 (idx_main_v9 (idx_main_v10 i)) = pre x0 x1 x3 x4 x5 x6 0 (i 0) (i 1) :=
  (congrArg _ (gate0_idx i)).trans (stacked x0 x1 x3 x4 x5 x6 0 (i 0) (i 1))
theorem gate1 (i : S4096x1024.Idx) :
    val_main_v8 (F := Ideal) x0 x1 x3 x4 x5 x6 (idx_main_v17 (idx_main_v18 i)) = pre x0 x1 x3 x4 x5 x6 1 (i 0) (i 1) :=
  (congrArg _ (gate1_idx i)).trans (stacked x0 x1 x3 x4 x5 x6 1 (i 0) (i 1))
theorem gate2 (i : S4096x1024.Idx) :
    val_main_v8 (F := Ideal) x0 x1 x3 x4 x5 x6 (idx_main_v25 (idx_main_v26 i)) = pre x0 x1 x3 x4 x5 x6 2 (i 0) (i 1) :=
  (congrArg _ (gate2_idx i)).trans (stacked x0 x1 x3 x4 x5 x6 2 (i 0) (i 1))
theorem gate3 (i : S4096x1024.Idx) :
    val_main_v8 (F := Ideal) x0 x1 x3 x4 x5 x6 (idx_main_v28 (idx_main_v29 i)) = pre x0 x1 x3 x4 x5 x6 3 (i 0) (i 1) :=
  (congrArg _ (gate3_idx i)).trans (stacked x0 x1 x3 x4 x5 x6 3 (i 0) (i 1))

/-- The reference's spelling of the logistic function: the float literal is the real 1, and `1 / (1 + exp (−t))` is the
    logistic function of the extended reals by definition. -/
theorem logistic_spelt (p : EReal) :
    Ideal.div (Ideal.ofBits .f32 0x3F800000#32) (Ideal.ofBits .f32 0x3F800000#32 + Ideal.exp (-p)) = Ideal.logistic p := by
  rw [Ideal.ofBits_one_f32]; rfl

/-- The input gate. -/
theorem inGate_eq (i : S4096x1024.Idx) :
    val_main_v16 (F := Ideal) x0 x1 x3 x4 x5 x6 i = Ideal.logistic (pre x0 x1 x3 x4 x5 x6 0 (i 0) (i 1)) := by
  rw [val_main_v16_apply, val_main_v15_apply, val_main_cst_0_apply, val_main_v14_apply, val_main_v13_apply,
    val_main_cst_apply, val_main_v12_apply, val_main_v11_apply, val_main_v10_apply, val_main_v9_apply, gate0]
  exact logistic_spelt _

/-- The forget gate. -/
theorem forgetGate_eq (i : S4096x1024.Idx) :
    val_main_v24 (F := Ideal) x0 x1 x3 x4 x5 x6 i = Ideal.logistic (pre x0 x1 x3 x4 x5 x6 1 (i 0) (i 1)) := by
  rw [val_main_v24_apply, val_main_v23_apply, val_main_cst_2_apply, val_main_v22_apply, val_main_v21_apply,
    val_main_cst_1_apply, val_main_v20_apply, val_main_v19_apply, val_main_v18_apply, val_main_v17_apply, gate1]
  exact logistic_spelt _

/-- The candidate. -/
theorem candidate_eq (i : S4096x1024.Idx) :
    val_main_v27 (F := Ideal) x0 x1 x3 x4 x5 x6 i = Ideal.tanh (pre x0 x1 x3 x4 x5 x6 2 (i 0) (i 1)) := by
  rw [val_main_v27_apply, val_main_v26_apply, val_main_v25_apply, gate2]
  rfl

/-- The output gate: the reference's first result. -/
theorem outGate_eq : val_main_v35 (F := Ideal) x0 x1 x3 x4 x5 x6 = outGate x0 x1 x3 x4 x5 x6 := by
  funext i
  rw [val_main_v35_apply, val_main_v34_apply, val_main_cst_4_apply, val_main_v33_apply, val_main_v32_apply,
    val_main_cst_3_apply, val_main_v31_apply, val_main_v30_apply, val_main_v29_apply, val_main_v28_apply, gate3]
  exact logistic_spelt _

/-- The new cell state: the reference's third result. -/
theorem cell_eq : val_main_v38 (F := Ideal) x0 x1 x2 x3 x4 x5 x6 = cell x0 x1 x2 x3 x4 x5 x6 := by
  funext i
  rw [val_main_v38_apply, val_main_v36_apply, val_main_v37_apply, forgetGate_eq, inGate_eq, candidate_eq]
  rfl

/-- The new hidden state: the reference's second result. -/
theorem hidden_eq : val_main_v40 (F := Ideal) x0 x1 x2 x3 x4 x5 x6 = hidden x0 x1 x2 x3 x4 x5 x6 := by
  funext i
  rw [val_main_v40_apply, val_main_v39_apply, outGate_eq, cell_eq]
  rfl

end Cert.ReferenceIdeal.IsCell

end
-- ==== Proof.lean ====
/-
  An LSTM cell forward pass, kernel against reference, over the extended reals.

  Both programs take a batch of 4096 rows x, h, c (1024 features each), four gates' weights W_x, W_h (each gate
  1024 × 1024) and biases b_x, b_h, and return the output gate, the new hidden state and the new cell state. With
      pre g b j = (Σ_k x[b,k]·W_x[g,j,k] + Σ_k h[b,k]·W_h[g,j,k]) + (b_x[g,j] + b_h[g,j]),
  σ the logistic function and tanh the hyperbolic tangent,
      o = σ (pre 3),   cell = σ (pre 1) · c + σ (pre 0) · tanh (pre 2),   hidden = o · tanh cell
  (Proof/LstmCell.lean). The kernel works on sixteen blocks of 256 rows, narrows the activations and the weights to
  bf16 before its matrix products (the identity on the extended reals) and uses the logistic function as one operation;
  the reference stacks the four gates in one batched contraction, transposes, slices, and spells the logistic function
  1 / (1 + exp (−t)). Index by index both are the expression above: the products' factors come in the other order
  (multiplication of extended reals is commutative), the sums are over the same 1024 features, and the additions are
  grouped alike. The inputs' finiteness is not used.

  Proof/KernelIsCell.lean: the kernel's three result arrays end as these functions of the arguments.
  Proof/ReferenceIsCell.lean: the reference's three results are the same functions.
-/
import proofs.«178058_j9131100472067_1_alg».proof.Defs
import proofs.«178058_j9131100472067_1_alg».proof.Proof.Gen.Kernel
import proofs.«178058_j9131100472067_1_alg».proof.Proof.Gen.Kernel.Skeleton
import proofs.«178058_j9131100472067_1_alg».proof.Proof.Gen.Kernel.Launch
import proofs.«178058_j9131100472067_1_alg».proof.Proof.Gen.Kernel.Points
import proofs.«178058_j9131100472067_1_alg».proof.Proof.Gen.Kernel.Frame
import proofs.«178058_j9131100472067_1_alg».proof.Proof.Gen.KernelIdeal
import proofs.«178058_j9131100472067_1_alg».proof.Proof.Gen.KernelIdeal.Skeleton
import proofs.«178058_j9131100472067_1_alg».proof.Proof.Gen.KernelIdeal.Launch
import proofs.«178058_j9131100472067_1_alg».proof.Proof.Gen.KernelIdeal.Points
import proofs.«178058_j9131100472067_1_alg».proof.Proof.Gen.KernelIdeal.Frame
import proofs.«178058_j9131100472067_1_alg».proof.Proof.Gen.ReferenceIdeal
import proofs.«178058_j9131100472067_1_alg».proof.Proof.Gen.Pre_finite_inputs
import proofs.«178058_j9131100472067_1_alg».proof.Proof.Gen.KernelIdeal.Value
import proofs.«178058_j9131100472067_1_alg».proof.Proof.Gen.ReferenceIdeal.Run
import proofs.«178058_j9131100472067_1_alg».proof.Proof.Gen.ReferenceIdeal.Read
import proofs.«178058_j9131100472067_1_alg».proof.Proof.LstmCell
import proofs.«178058_j9131100472067_1_alg».proof.Proof.KernelIsCell
import proofs.«178058_j9131100472067_1_alg».proof.Proof.ReferenceIsCell
import Idealize.ShloMosaic.Adequacy
import Idealize.ShloMosaic.Init

noncomputable section

namespace Cert.Proof

open Idealize.ShloMosaic Idealize.SL.Sem Cert.LstmCell Cert.KernelIdeal.IsCell

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a sequence of array operations: it runs to the end, and its arguments are never written. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Reading the kernel over the extended reals rewrote none of its operations. -/
theorem preserves : Cert.preserves_Kernel_KernelIdeal := trivial

/-- From memories that agree on the seven arguments, both programs end with the cell's three functions of them. -/
theorem algebraic : Cert.algebraic_KernelIdeal_ReferenceIdeal := by
  intro m ρ m' ρ' _ hagree
  refine ⟨fun c => outGate (xs m c) (hs m c) (wx m c) (wh m c) (bx m c) (bh m c),
    fun c => hidden (xs m c) (hs m c) (cs m c) (wx m c) (wh m c) (bx m c) (bh m c),
    fun c => cell (xs m c) (hs m c) (cs m c) (wx m c) (wh m c) (bx m c) (bh m c),
    Cert.KernelIdeal.IsCell.run m ρ, ?_⟩
  refine (θ_run Cert.ReferenceIdeal.defs _ _).mono (fun r h c => ?_) (Cert.ReferenceIdeal.Value.run (F := Ideal) m' ρ')
  obtain ⟨a0, a1, a2, a3, a4, a5, a6⟩ := hagree c
  obtain ⟨r0, r1, r2, kept⟩ := h c
  refine ⟨?_, ?_, ?_, kept⟩
  · rw [r0, Cert.ReferenceIdeal.Read.val_main_v35_eq, Cert.ReferenceIdeal.IsCell.outGate_eq, a0, a1, a3, a4, a5, a6]
  · rw [r1, Cert.ReferenceIdeal.Read.val_main_v40_eq, Cert.ReferenceIdeal.IsCell.hidden_eq, a0, a1, a2, a3, a4, a5, a6]
  · rw [r2, Cert.ReferenceIdeal.Read.val_main_v38_eq, Cert.ReferenceIdeal.IsCell.cell_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
